-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S_ : Shape := ⟨0, ![]⟩

class Facts : Prop where
  bcast_S_S2097152x5 : S_.BroadcastsInDim S2097152x5 (![] : Fin 0 → Fin S2097152x5.rank)
  reducesTo_S2097152x5_S_d0_1 : S2097152x5.ReducesTo [0, 1] S_
  h_S_ : 0 < S_.numel
  bcast_S_S32x5 : S_.BroadcastsInDim S32x5 (![] : Fin 0 → Fin S32x5.rank)
  reducesTo_S32x5_S_d0_1 : S32x5.ReducesTo [0, 1] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S10x16 : S_.BroadcastsInDim S10x16 (![] : Fin 0 → Fin S10x16.rank)
  reducesTo_S10x16_S_d0_1 : S10x16.ReducesTo [0, 1] S_

variable [Facts]

def fn_part1 {F : FTy → Type} [FloatOps F] (main_arg4 : FVec F S10x16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S10x16 .f32 := Host.absf main_arg4
  let main_cst_6 : FVec F S_ .f32 := constant S_ .f32 0x7F800000#32
  let main_v20 : FVec F S10x16 .f32 := broadcastInDim S10x16 ![] bcast_S_S10x16 main_cst_6
  let main_v21 : IVec S10x16 1 := cmpf .olt main_v19 main_v20
  let main_c_7 : IVec S_ 1 := constantI S_ 1 1#1
  let main_v22 : IVec S_ 1 := (fun x v => Host.reduce IntOp.andi x v reducesTo_S10x16_S_d0_1 h_S_) main_v21 main_c_7
  let main_v23 : IVec S_ 1 := andi main_v18 main_v22
  main_v23

def fn {F : FTy → Type} [FloatOps F] (main_arg0 : FVec F S2097152x5 .f32) (main_arg1 : FVec F S32x5 .f32) (main_arg2 : FVec F S32x32 .f32) (main_arg3 : FVec F S16x32 .f32) (main_arg4 : FVec F S10x16 .f32) : IVec S_ 1 :=
  let main_v0 : FVec F S2097152x5 .f32 := Host.absf main_arg0
  let main_cst : FVec F S_ .f32 := constant S_ .f32 0x7F800000#32
  let main_v1 : FVec F S2097152x5 .f32 := broadcastInDim S2097152x5 ![] bcast_S_S2097152x5 main_cst
  let main_v2 : IVec S2097152x5 1 := cmpf .olt main_v0 main_v1
  let main_c : IVec S_ 1 := constantI S_ 1 1#1
  let main_v3 : IVec S_ 1 := (fun x v => Host.reduce IntOp.andi x v reducesTo_S2097152x5_S_d0_1 h_S_) main_v2 main_c
  let main_v4 : FVec F S32x5 .f32 := Host.absf main_arg1
  let main_cst_0 : FVec F S_ .f32 := constant S_ .f32 0x7F800000#32
  let main_v5 : FVec F S32x5 .f32 := broadcastInDim S32x5 ![] bcast_S_S32x5 main_cst_0
  let main_v6 : IVec S32x5 1 := cmpf .olt main_v4 main_v5
  let main_c_1 : IVec S_ 1 := constantI S_ 1 1#1
  let main_v7 : IVec S_ 1 := (fun x v => Host.reduce IntOp.andi x v reducesTo_S32x5_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_v13 main_v16
-- ==== Kernel.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S2097152x10 : Shape := ⟨2, ![2097152, 10]⟩
abbrev S8192x5 : Shape := ⟨2, ![8192, 5]⟩
abbrev S8192x10 : Shape := ⟨2, ![8192, 10]⟩
abbrev S5x32 : Shape := ⟨2, ![5, 32]⟩
abbrev S8192x32 : Shape := ⟨2, ![8192, 32]⟩
abbrev S32x16 : Shape := ⟨2, ![32, 16]⟩
abbrev S8192x16 : Shape := ⟨2, ![8192, 16]⟩
abbrev S16x10 : Shape := ⟨2, ![16, 10]⟩

abbrev nBuf : Space → Nat
  | .hbm => 6
  | .vmem => 8
  | .smem => 0
  | _ => 0

abbrev bufTy : (tb : Table) → Fin (tcTables nBuf tb) → BufTy
  | .hbm, ⟨0, _⟩ => ⟨S2097152x5, .f32⟩
  | .hbm, ⟨1, _⟩ => ⟨S32x5, .f32⟩
  | .hbm, ⟨2, _⟩ => ⟨S32x32, .f32⟩
  | .hbm, ⟨3, _⟩ => ⟨S16x32, .f32⟩
  | .hbm, ⟨4, _⟩ => ⟨S10x16, .f32⟩
  | .hbm, ⟨5, _⟩ => ⟨S2097152x10, .f32⟩
  | .local _ .vmem, ⟨0, _⟩ => ⟨S8192x5, .f32⟩
  | .local _ .vmem, ⟨1, _⟩ => ⟨S8192x5, .f32⟩
  | .local _ .vmem, ⟨2, _⟩ => ⟨S32x5, .f32⟩
  | .local _ .vmem, ⟨3, _⟩ => ⟨S32x32, .f32⟩
  | .local _ .vmem, ⟨4, _⟩ => ⟨S16x32, .f32⟩
  | .local _ .vmem, ⟨5, _⟩ => ⟨S10x16, .f32⟩
  | .local _ .vmem, ⟨6, _⟩ => ⟨S8192x10, .f32⟩
  | .local _ .vmem, ⟨7, _⟩ => ⟨S8192x10, .f32⟩
  | _, _ => ⟨S2097152x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8192x5_S8192x5_0_0 : ∀ a, (![0, 0] : Fin 2 → Nat) a + S8192x5.size a ≤ S8192x5.size a
  h_S8192x5 : 0 < S8192x5.numel
  inb_S32x5_S32x5_0_0 : ∀ a, (![0, 0] : Fin 2 → Nat) a + S32x5.size a ≤ S32x5.size a
  h_S32x5 : 0 < S32x5.numel
  inb_S32x32_S32x32_0_0 : ∀ a, (![0, 0] : Fin 2 → Nat) a + S32x32.size a ≤ S32x32.size a
  h_S32x32 : 0 < S32x32.numel
  inb_S16x32_S16x32_0_0 : ∀ a, (![0, 0] : Fin 2 → Nat) a + S16x32.size a ≤ S16x32.size a
  h_S16x32 : 0 < S16x32.numel
  inb_S10x16_S10x16_0_0 : ∀ a, (![0, 0] : Fin 2 → Nat) a + S10x16.size a ≤ S10x16.size a
  h_S10x16 : 0 < S10x16.numel
  transposes_S32x5_p1_0_S5x32 : S32x5.Transposes [1, 0] S5x32
  natLt_1_32 : 1 < 32
  transposes_S32x32_p1_0_S32x32 : S32x32.Transposes [1, 0] S32x32
  transposes_S16x32_p1_0_S32x16 : S16x32.Transposes [1, 0] S32x16
  transposes_S10x16_p1_0_S16x10 : S10x16.Transposes [1, 0] S16x10
  inb_S8192x10_S8192x10_0_0 : ∀ a, (![0, 0] : Fin 2 → Nat) a + S8192x10.size a ≤ S8192x10.size a
  h_S8192x10 : 0 < S8192x10.numel
  dot_S8192x5_S5x32_S8192x32_1_0_0_1_n_n_wf : DotDims.WF S8192x5 S5x32 S8192x32 [1] [0] [0] [1] [] []
  dot_S8192x32_S32x32_S8192x32_1_0_0_1_n_n_wf : DotDims.WF S8192x32 S32x32 S8192x32 [1] [0] [0] [1] [] []
  dot_S8192x32_S32x16_S8192x16_1_0_0_1_n_n_wf : DotDims.WF S8192x32 S32x16 S8192x16 [1] [0] [0] [1] [] []
  dot_S8192x16_S16x10_S8192x10_1_0_0_1_n_n_wf : DotDims.WF S8192x16 S16x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S2097152x5.size a
  hwx0_0 : ∀ i : grid0.Coords, EltTy.bits .f32 = 32 ∨ (Rect.block (s := S2097152x5) S8192x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5.size a ≤ S32x5.size a
  hwx0_1 : ∀ i : grid0.Coords, EltTy.bits .f32 = 32 ∨ (Rect.block (s := S32x5) S32x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x16.size a ≤ S10x16.size a
  hwx0_4 : ∀ i : grid0.Coords, EltTy.bits .f32 = 32 ∨ (Rect.block (s := S10x16) S10x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x10.size a ≤ S2097152x10.size a
  hwx0_5 : ∀ i : grid0.Coords, EltTy.bits .f32 = 32 ∨ (Rect.block (s := S2097152x10) S8192x10.size (cc0_transform_5 i) (hinb0_5 i)).WholeWords (EltTy.packing .f32)

variable [Facts₀]

def dot_S8192x5_S5x32_S8192x32_1_0_0_1_n_n : DotDims S8192x5 S5x32 S8192x32 where
  lhsContracting := [1]
  rhsContracting := [0]
  lhsNonContracting := [0]
  rhsNonContracting := [1]
  lhsBatch := []
  rhsBatch := []
  wf := dot_S8192x5_S5x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x10_S8192x10_1_0_0_1_n_n : DotDims S8192x16 S16x10 S8192x10 where
  lhsContracting := [1]
  rhsContracting := [0]
  lhsNonContracting := [0]
  rhsNonContracting := [1]
  lhsBatch := []
  rhsBatch := []
  wf := dot_S8192x16_S16x10_S8192x10_1_0_0_1_n_n_wf

abbrev win0_0 : Pipeline.Window sig grid0 :=
  Pipeline.Window.ofSpec (Memref.whole main_arg0) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S5x32 : Shape := ⟨2, ![5, 32]⟩
abbrev S2097152x32 : Shape := ⟨2, ![2097152, 32]⟩
abbrev S_ : Shape := ⟨0, ![]⟩
abbrev S32x16 : Shape := ⟨2, ![32, 16]⟩
abbrev S2097152x16 : Shape := ⟨2, ![2097152, 16]⟩
abbrev S16x10 : Shape := ⟨2, ![16, 10]⟩
abbrev S2097152x10 : Shape := ⟨2, ![2097152, 10]⟩

abbrev nBuf : Space → Nat
  | .hbm => 41
  | .vmem => 0
  | .smem => 0
  | _ => 0

abbrev bufTy : (tb : Table) → Fin (tcTables nBuf tb) → BufTy
  | .hbm, ⟨0, _⟩ => ⟨S2097152x5, .f32⟩
  | .hbm, ⟨1, _⟩ => ⟨S32x5, .f32⟩
  | .hbm, ⟨2, _⟩ => ⟨S32x32, .f32⟩
  | .hbm, ⟨3, _⟩ => ⟨S16x32, .f32⟩
  | .hbm, ⟨4, _⟩ => ⟨S10x16, .f32⟩
  | .hbm, ⟨5, _⟩ => ⟨S5x32, .f32⟩
  | .hbm, ⟨6, _⟩ => ⟨S2097152x32, .f32⟩
  | .hbm, ⟨7, _⟩ => ⟨S_, .f32⟩
  | .hbm, ⟨8, _⟩ => ⟨S2097152x32, .f32⟩
  | .hbm, ⟨9, _⟩ => ⟨S2097152x32, .f32⟩
  | .hbm, ⟨10, _⟩ => ⟨S_, .f32⟩
  | .hbm, ⟨11, _⟩ => ⟨S2097152x32, .f32⟩
  | .hbm, ⟨12, _⟩ => ⟨S2097152x32, .i1⟩
  | .hbm, ⟨13, _⟩ => ⟨S2097152x32, .f32⟩
  | .hbm, ⟨14, _⟩ => ⟨S32x32, .f32⟩
  | .hbm, ⟨15, _⟩ => ⟨S2097152x32, .f32⟩
  | .hbm, ⟨16, _⟩ => ⟨S_, .f32⟩
  | .hbm, ⟨17, _⟩ => ⟨S2097152x32, .f32⟩
  | .hbm, ⟨18, _⟩ => ⟨S2097152x32, .f32⟩
  | .hbm, ⟨19, _⟩ => ⟨S_, .f32⟩
  | .hbm, ⟨20, _⟩ => ⟨S2097152x32, .f32⟩
  | .hbm, ⟨21, _⟩ => ⟨S2097152x32, .i1⟩
  | .hbm, ⟨22, _⟩ => ⟨S2097152x32, .f32⟩
  | .hbm, ⟨23, _⟩ => ⟨S32x16, .f32⟩
  | .hbm, ⟨24, _⟩ => ⟨S2097152x16, .f32⟩
  | .hbm, ⟨25, _⟩ => ⟨S_, .f32⟩
  | .hbm, ⟨26, _⟩ => ⟨S2097152x16, .f32⟩
  | .hbm, ⟨27, _⟩ => ⟨S2097152x16, .f32⟩
  | .hbm, ⟨28, _⟩ => ⟨S_, .f32⟩
  | .hbm, ⟨29, _⟩ => ⟨S2097152x16, .f32⟩
  | .hbm, ⟨30, _⟩ => ⟨S2097152x16, .i1⟩
  | .hbm, ⟨31, _⟩ => ⟨S2097152x16, .f32⟩
  | .hbm, ⟨32, _⟩ => ⟨S16x10, .f32⟩
  | .hbm, ⟨33, _⟩ => ⟨S2097152x10, .f32⟩
  | .hbm, ⟨34, _⟩ => ⟨S_, .f32⟩
  | .hbm, ⟨35, _⟩ => ⟨S2097152x10, .f32⟩
  | .hbm, ⟨36, _⟩ => ⟨S2097152x10, .f32⟩
  | .hbm, ⟨37, _⟩ => ⟨S_, .f32⟩
  | .hbm, ⟨38, _⟩ => ⟨S2097152x10, .f32⟩
  | .hbm, ⟨39, _⟩ => ⟨S2097152x10, .i1⟩
  | .hbm, ⟨40, _⟩ => ⟨S2097152x10, .f32⟩
  | _, _ => ⟨S2097152x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S32x5_S5x32_1_0 : S32x5.Transposes [1, 0] S5x32
  bcast_S_S2097152x32 : S_.BroadcastsInDim S2097152x32 (![] : Fin 0 → Fin S2097152x32.rank)
  transposes_S32x32_S32x32_1_0 : S32x32.Transposes [1, 0] S32x32
  transposes_S16x32_S32x16_1_0 : S16x32.Transposes [1, 0] S32x16
  bcast_S_S2097152x16 : S_.BroadcastsInDim S2097152x16 (![] : Fin 0 → Fin S2097152x16.rank)
  transposes_S10x16_S16x10_1_0 : S10x16.Transposes [1, 0] S16x10
  bcast_S_S2097152x10 : S_.BroadcastsInDim S2097152x10 (![] : Fin 0 → Fin S2097152x10.rank)
  dot_S2097152x5_S5x32_S2097152x32_1_0_0_1_n_n_wf : DotDims.WF S2097152x5 S5x32 S2097152x32 [1] [0] [0] [1] [] []
  dot_S2097152x32_S32x32_S2097152x32_1_0_0_1_n_n_wf : DotDims.WF S2097152x32 S32x32 S2097152x32 [1] [0] [0] [1] [] []
  dot_S2097152x32_S32x16_S2097152x16_1_0_0_1_n_n_wf : DotDims.WF S2097152x32 S32x16 S2097152x16 [1] [0] [0] [1] [] []
  dot_S2097152x16_S16x10_S2097152x10_1_0_0_1_n_n_wf : DotDims.WF S2097152x16 S16x10 S2097152x10 [1] [0] [0] [1] [] []

variable [Facts₀]

def dot_S2097152x5_S5x32_S2097152x32_1_0_0_1_n_n : DotDims S2097152x5 S5x32 S2097152x32 where
  lhsContracting := [1]
  rhsContracting := [0]
  lhsNonContracting := [0]
  rhsNonContracting := [1]
  lhsBatch := []
  rhsBatch := []
  wf := dot_S2097152x5_S5x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x16_S2097152x16_1_0_0_1_n_n : DotDims S2097152x32 S32x16 S2097152x16 where
  lhsContracting := [1]
  rhsContracting := [0]
  lhsNonContracting := [0]
  rhsNonContracting := [1]
  lhsBatch := []
  rhsBatch := []
  wf := dot_S2097152x32_S32x16_S2097152x16_1_0_0_1_n_n_wf
def dot_S2097152x16_S16x10_S2097152x10_1_0_0_1_n_n : DotDims S2097152x16 S16x10 S2097152x10 where
  lhsContracting := [1]
  rhsContracting := [0]
  lhsNonContracting := [0]
  rhsNonContracting := [1]
  lhsBatch := []
  rhsBatch := []
  wf := dot_S2097152x16_S16x10_S2097152x10_1_0_0_1_n_n_wf

class Facts : Prop extends Facts₀ where

variable [Facts]
-- ==== Proof.Layer.lean ====
/-
  One spiking layer, read at an index.

  A leaky integrate-and-fire layer with time constant 2 and threshold 1, entered from rest, maps a row `a` of
  activations through a weight matrix `W` (one row of `W` per output neuron) to the spikes
      fire (∑ₖ a k · W n k),        fire v = 1 if 1 ≤ v/2, else 0.
  Two spellings of it occur.  One forms the drive as a matrix product into a zero accumulator, halves it by the
  product with the float 1/2, compares, widens the one-bit answer to a word and converts the word as a signed integer.
  The other forms the drive as a general dot product, halves it by the quotient by the float 2, compares, and converts
  the one-bit answer as an unsigned integer.  On the extended reals these are the same function: a quotient by the
  real 2 is the product with the real 1/2 at the infinities too, a one-bit word widened by zeros has the same value
  read signed or unsigned, and both drives are the same finite sum of products.  This file states the layer once
  (`layer`), for any number of rows, and reads both spellings at a row and a neuron as `layer`.
-/
import Idealize.ShloMosaic.PureOps.Ideal.Laws
import Idealize.ShloMosaic.Lib.ValueIdx
import Idealize.ShloMosaic.Lib.ValueLayout
import Idealize.ShloMosaic.Lib.IdealHost

noncomputable section

namespace Cert.Spike

open Idealize.ShloMosaic Idealize.ShloMosaic.ValueIdx

/-! ## The scale, spelt two ways -/

/-- The float pattern `0x3F000000` is the real 1/2. -/
theorem half_bits : Ideal.ofBits .f32 0x3F000000#32 = (((1 : ℝ) / 2 : ℝ) : EReal) := by
  simp [Ideal.ofBits, Ideal.ieee, -EReal.coe_mul]; norm_num

/-- The float pattern `0x40000000` is the real 2. -/
theorem two_bits : Ideal.ofBits .f32 0x40000000#32 = ((2 : ℝ) : EReal) := by
  simp [Ideal.ofBits, Ideal.ieee, -EReal.coe_mul]; norm_num

/-- Halving by the quotient by 2 is halving by the product with 1/2, on every extended real. -/
theorem div_two (v : EReal) :
    Ideal.div v (Ideal.ofBits .f32 0x40000000#32) = v * Ideal.ofBits .f32 0x3F000000#32 := by
  rw [two_bits, half_bits, Ideal.div_coe (by norm_num : (2 : ℝ) ≠ 0)]

/-- A one-bit word widened by zeros to 32 bits has, read as a signed integer, its value as a natural number. -/
theorem widen_bit (b : BitVec 1) : (((b.setWidth 32).toInt : ℝ) : EReal) = ((b.toNat : ℝ) : EReal) := by
  have h : ∀ b : BitVec 1, (b.setWidth 32).toInt = (b.toNat : Int) := by decide
  rw [h b, Int.cast_natCast]

/-! ## The layer -/

/-- Whether a neuron with drive `v` fires: `1` when half the drive reaches the threshold `1`, else `0`. -/
def fire (v : EReal) : EReal :=
  (((Ideal.cmp .oge (v * Ideal.ofBits .f32 0x3F000000#32) (Ideal.ofBits .f32 0x3F800000#32)).toNat : ℝ) : EReal)

/-- One layer on one row: neuron `n` fires on the drive `∑ₖ a k · W n k`. -/
def layer {K N : ℕ} (W : (⟨2, ![N, K]⟩ : Shape).Idx → EReal) (a : Fin K → EReal) (n : Fin N) : EReal :=
  fire (∑ k : Fin K, a k * W (ix2 n k))

variable {R K N : ℕ}

/-! ## The matrix product of a row -/

theorem plain_lhs_0 (i : (⟨2, ![R, N]⟩ : Shape).Idx) (q : (DotDims.plain R K N).contr.Idx) :
    ((DotDims.plain R K N).lhsIdx i q 0).val = (i 0).val := rfl
theorem plain_lhs_1 (i : (⟨2, ![R, N]⟩ : Shape).Idx) (q : (DotDims.plain R K N).contr.Idx) :
    ((DotDims.plain R K N).lhsIdx i q 1).val = (q ⟨0, (Nat.one_pos : 0 < 1)⟩).val := rfl
theorem plain_rhs_0 (i : (⟨2, ![R, N]⟩ : Shape).Idx) (q : (DotDims.plain R K N).contr.Idx) :
    ((DotDims.plain R K N).rhsIdx i q 0).val = (q ⟨0, (Nat.one_pos : 0 < 1)⟩).val := rfl
theorem plain_rhs_1 (i : (⟨2, ![R, N]⟩ : Shape).Idx) (q : (DotDims.plain R K N).contr.Idx) :
    ((DotDims.plain R K N).rhsIdx i q 1).val = (i 1).val := rfl

/-- The contraction of a plain `R×K` by `K×N` product, at row `p` and column `q`, as a sum over `Fin K`. -/
theorem plain_sum (A : (⟨2, ![R, K]⟩ : Shape).Idx → EReal) (B : (⟨2, ![K, N]⟩ : Shape).Idx → EReal) (p : Fin R) (q : Fin N) :
    (∑ k : (DotDims.plain R K N).contr.Idx,
        A ((DotDims.plain R K N).lhsIdx (ix2 p q) k) * B ((DotDims.plain R K N).rhsIdx (ix2 p q) k))
      = ∑ k : Fin K, A (ix2 p k) * B (ix2 k q) := by
  rw [← Equiv.sum_comp (contrEquiv1 (DotDims.plain R K N) K rfl rfl).symm]
  refine Finset.sum_congr rfl fun k _ => ?_
  have hk := contrEquiv1_symm_val (DotDims.plain R K N) K rfl rfl k
  have el : (DotDims.plain R K N).lhsIdx (ix2 p q) ((contrEquiv1 (DotDims.plain R K N) K rfl rfl).symm k) = ix2 p k :=
    funext fun a => Fin.ext (by
      match a with
      | ⟨0, _⟩ => exact plain_lhs_0 _ _
      | ⟨1, _⟩ => exact (plain_lhs_1 _ _).trans hk)
  have er : (DotDims.plain R K N).rhsIdx (ix2 p q) ((contrEquiv1 (DotDims.plain R K N) K rfl rfl).symm k) = ix2 k q :=
    funext fun a => Fin.ext (by
      match a with
      | ⟨0, _⟩ => exact (plain_rhs_0 _ _).trans hk
      | ⟨1, _⟩ => exact plain_rhs_1 _ _)
  rw [el, er]

/-- The same contraction against TRANSPOSED weights: the drive of neuron `q` on row `p`. -/
theorem drive_sum (A : (⟨2, ![R, K]⟩ : Shape).Idx → EReal) (W : (⟨2, ![N, K]⟩ : Shape).Idx → EReal)
    (hT : (⟨2, ![N, K]⟩ : Shape).Transposes [1, 0] ⟨2, ![K, N]⟩) (p : Fin R) (q : Fin N) :
    (∑ k : (DotDims.plain R K N).contr.Idx,
        A ((DotDims.plain R K N).lhsIdx (ix2 p q) k)
          * transpose ⟨2, ![K, N]⟩ [1, 0] W hT ((DotDims.plain R K N).rhsIdx (ix2 p q) k))
      = ∑ k : Fin K, A (ix2 p k) * W (ix2 q k) :=
  (plain_sum A (transpose ⟨2, ![K, N]⟩ [1, 0] W hT) p q).trans
    (Finset.sum_congr rfl fun k _ => congrArg (A (ix2 p k) * ·) (transpose_ix2_apply W hT k q))

/-! ## The layer as a kernel body spells it -/

/-- Transposed weights, a matrix product into a zero accumulator, the product with 1/2, the comparison with 1, the
    one-bit answer widened by zeros and converted as a signed integer. -/
def kLayer (d : DotDims ⟨2, ![R, K]⟩ ⟨2, ![K, N]⟩ ⟨2, ![R, N]⟩)
    (hT : (⟨2, ![N, K]⟩ : Shape).Transposes [1, 0] ⟨2, ![K, N]⟩) (h32 : 1 < 32)
    (A : FVec Ideal ⟨2, ![R, K]⟩ .f32) (W : FVec Ideal ⟨2, ![N, K]⟩ .f32) : FVec Ideal ⟨2, ![R, N]⟩ .f32 :=
  sitofp .f32 (extui 32 (cmpf .oge
    (mulf (matmul d (some .fp32) A (transpose ⟨2, ![K, N]⟩ [1, 0] W hT) (constant ⟨2, ![R, N]⟩ .f32 0x00000000#32))
      (broadcast ⟨2, ![R, N]⟩ (Scalar.ofBits .f32 0x3F000000#32)))
    (broadcast ⟨2, ![R, N]⟩ (Scalar.ofBits .f32 0x3F800000#32))) h32)

/-- At row `p` and neuron `q` it is the layer on row `p` of the activations. -/
theorem kLayer_apply (d : DotDims ⟨2, ![R, K]⟩ ⟨2, ![K, N]⟩ ⟨2, ![R, N]⟩) (hd : d = DotDims.plain R K N)
    (hT : (⟨2, ![N, K]⟩ : Shape).Transposes [1, 0] ⟨2, ![K, N]⟩) (h32 : 1 < 32)
    (A : FVec Ideal ⟨2, ![R, K]⟩ .f32) (W : FVec Ideal ⟨2, ![N, K]⟩ .f32) (p : Fin R) (q : Fin N) :
    kLayer d hT h32 A W (ix2 p q) = layer W (fun k => A (ix2 p k)) q := by
  subst hd
  show ((((Ideal.cmp .oge
      (FloatOps.matmul (DotDims.plain R K N) (some .fp32) A (transpose ⟨2, ![K, N]⟩ [1, 0] W hT)
        (constant ⟨2, ![R, N]⟩ .f32 0x00000000#32) (ix2 p q) * Ideal.ofBits .f32 0x3F000000#32)
      (Ideal.ofBits .f32 0x3F800000#32)).setWidth 32).toInt : ℝ) : EReal) = _
  rw [widen_bit, Ideal.matmul_constant_zero_apply, drive_sum]
  rfl

/-! ## The layer as a host program spells it -/

/-- Transposed weights, a general dot product, the quotient by 2, the comparison with 1, the one-bit answer converted
    as an unsigned integer. -/
def hLayer (d : DotDims ⟨2, ![R, K]⟩ ⟨2, ![K, N]⟩ ⟨2, ![R, N]⟩)
    (hT : (⟨2, ![N, K]⟩ : Shape).Transposes [1, 0] ⟨2, ![K, N]⟩)
    (hb : (⟨0, ![]⟩ : Shape).BroadcastsInDim ⟨2, ![R, N]⟩ ![])
    (A : FVec Ideal ⟨2, ![R, K]⟩ .f32) (W : FVec Ideal ⟨2, ![N, K]⟩ .f32) : FVec Ideal ⟨2, ![R, N]⟩ .f32 :=
  uitofp .f32 (cmpf .oge
    (Host.divf (Host.dotGeneral d none A (transpose ⟨2, ![K, N]⟩ [1, 0] W hT))
      (broadcastInDim ⟨2, ![R, N]⟩ ![] hb (constant (F := Ideal) ⟨0, ![]⟩ .f32 0x40000000#32)))
    (broadcastInDim ⟨2, ![R, N]⟩ ![] hb (constant (F := Ideal) ⟨0, ![]⟩ .f32 0x3F800000#32)))

/-- At row `p` and neuron `q` it is the layer on row `p` of the activations. -/
theorem hLayer_apply (d : DotDims ⟨2, ![R, K]⟩ ⟨2, ![K, N]⟩ ⟨2, ![R, N]⟩) (hd : d = DotDims.plain R K N)
    (hT : (⟨2, ![N, K]⟩ : Shape).Transposes [1, 0] ⟨2, ![K, N]⟩)
    (hb : (⟨0, ![]⟩ : Shape).BroadcastsInDim ⟨2, ![R, N]⟩ ![])
    (A : FVec Ideal ⟨2, ![R, K]⟩ .f32) (W : FVec Ideal ⟨2, ![N, K]⟩ .f32) (p : Fin R) (q : Fin N) :
    hLayer d hT hb A W (ix2 p q) = layer W (fun k => A (ix2 p k)) q := by
  subst hd
  show (((Ideal.cmp .oge
      (Ideal.div (FloatOps.dotGeneral (DotDims.plain R K N) none .single A (transpose ⟨2, ![K, N]⟩ [1, 0] W hT) (ix2 p q))
        (broadcastInDim ⟨2, ![R, N]⟩ ![] hb (constant (F := Ideal) ⟨0, ![]⟩ .f32 0x40000000#32) (ix2 p q)))
      (broadcastInDim ⟨2, ![R, N]⟩ ![] hb (constant (F := Ideal) ⟨0, ![]⟩ .f32 0x3F800000#32) (ix2 p q))).toNat : ℝ) : EReal) = _
  rw [broadcastInDim_scalar_apply, broadcastInDim_scalar_apply, Ideal.dotGeneral_apply, drive_sum]
  show (((Ideal.cmp .oge (Ideal.div _ (Ideal.ofBits .f32 0x40000000#32)) (Ideal.ofBits .f32 0x3F800000#32)).toNat : ℝ) : EReal) = _
  rw [div_two]
  rfl

/-! ## Four layers -/

/-- The network on one row: 5 inputs, layers of 32, 32, 16 and 10 neurons. -/
def net (W1 : (⟨2, ![32, 5]⟩ : Shape).Idx → EReal) (W2 : (⟨2, ![32, 32]⟩ : Shape).Idx → EReal)
    (W3 : (⟨2, ![16, 32]⟩ : Shape).Idx → EReal) (W4 : (⟨2, ![10, 16]⟩ : Shape).Idx → EReal)
    (a : Fin 5 → EReal) : Fin 10 → EReal :=
  layer W4 (layer W3 (layer W2 (layer W1 a)))

/-- The network applied to every row of a batch of 2097152 inputs: entry `(r, q)` is neuron `q` of the network on
    row `r` of `x`. -/
def G (x : (⟨2, ![2097152, 5]⟩ : Shape).Idx → EReal) (W1 : (⟨2, ![32, 5]⟩ : Shape).Idx → EReal)
    (W2 : (⟨2, ![32, 32]⟩ : Shape).Idx → EReal) (W3 : (⟨2, ![16, 32]⟩ : Shape).Idx → EReal)
    (W4 : (⟨2, ![10, 16]⟩ : Shape).Idx → EReal) : (⟨2, ![2097152, 10]⟩ : Shape).Idx → EReal :=
  fun i => net W1 W2 W3 W4 (fun k => x (ix2 (i 0) k)) (i 1)

theorem G_apply (x : (⟨2, ![2097152, 5]⟩ : Shape).Idx → EReal) (W1 : (⟨2, ![32, 5]⟩ : Shape).Idx → EReal)
    (W2 : (⟨2, ![32, 32]⟩ : Shape).Idx → EReal) (W3 : (⟨2, ![16, 32]⟩ : Shape).Idx → EReal)
    (W4 : (⟨2, ![10, 16]⟩ : Shape).Idx → EReal) (r : Fin 2097152) (q : Fin 10) :
    G x W1 W2 W3 W4 (ix2 r q) = net W1 W2 W3 W4 (fun k => x (ix2 r k)) q := rfl

end Cert.Spike

end
-- ==== Proof.KernelRow.lean ====
/-
  The kernel body's value at a row.

  The body loads a block of 8192 input rows and the four whole weight matrices, and computes from them, by pure vector
  operations, the block of 8192 output rows it stores.  That computation is four spiking layers one after the other,
  each in the spelling of a kernel body (`Cert.Spike.kLayer`), so the entry at row `p` and neuron `q` of the stored
  block is the four-layer network (`Cert.Spike.net`) applied to row `p` of the loaded block: it depends on no other row.
-/
import proofs.«180145_j33784212750539_1_alg».proof.Proof.Gen.KernelIdeal.Skeleton
import proofs.«180145_j33784212750539_1_alg».proof.Proof.Layer

noncomputable section

namespace Cert.KernelIdeal.Row

open Cert.KernelIdeal Cert.KernelIdeal.Gen Idealize.ShloMosaic Idealize.ShloMosaic.ValueIdx Cert.Spike

/-- The body's arithmetic is four layers in the kernel's spelling, each fed the spikes of the one before. -/
theorem pay_layers (x0 : Vec Ideal S8192x5 .f32) (w1 : Vec Ideal S32x5 .f32) (w2 : Vec Ideal S32x32 .f32)
    (w3 : Vec Ideal S16x32 .f32) (w4 : Vec Ideal S10x16 .f32) :
    k0_pay1 (F := Ideal) x0 w1 w2 w3 w4
      = kLayer dot_S8192x16_S16x10_S8192x10_1_0_0_1_n_n transposes_S10x16_p1_0_S16x10 natLt_1_32
          (kLayer dot_S8192x32_S32x16_S8192x16_1_0_0_1_n_n transposes_S16x32_p1_0_S32x16 natLt_1_32
            (kLayer dot_S8192x32_S32x32_S8192x32_1_0_0_1_n_n transposes_S32x32_p1_0_S32x32 natLt_1_32
              (kLayer dot_S8192x5_S5x32_S8192x32_1_0_0_1_n_n transposes_S32x5_p1_0_S5x32 natLt_1_32 x0 w1) w2) w3) w4 :=
  rfl

/-- Row `p`, neuron `q` of the stored block: the network on row `p` of the loaded block. -/
theorem pay_apply (x0 : Vec Ideal S8192x5 .f32) (w1 : Vec Ideal S32x5 .f32) (w2 : Vec Ideal S32x32 .f32)
    (w3 : Vec Ideal S16x32 .f32) (w4 : Vec Ideal S10x16 .f32) (p : Fin 8192) (q : Fin 10) :
    k0_pay1 (F := Ideal) x0 w1 w2 w3 w4 (ix2 p q) = net w1 w2 w3 w4 (fun k => x0 (ix2 p k)) q := by
  rw [pay_layers]
  unfold net
  refine (kLayer_apply _ rfl _ _ _ w4 p q).trans (congrArg (fun a => layer w4 a q) (funext fun k3 => ?_))
  refine (kLayer_apply _ rfl _ _ _ w3 p k3).trans (congrArg (fun a => layer w3 a k3) (funext fun k2 => ?_))
  refine (kLayer_apply _ rfl _ _ _ w2 p k2).trans (congrArg (fun a => layer w2 a k2) (funext fun k1 => ?_))
  exact kLayer_apply _ rfl _ _ x0 w1 p k1

end Cert.KernelIdeal.Row

end
-- ==== Proof.KernelWhole.lean ====
/-
  From the blocks to the whole array.

  The launch walks 256 grid points.  At point `t` the body is handed rows `8192·t … 8192·t + 8191` of the input (all
  five columns) and the four weight matrices whole, and what it stores is written back to the same rows (all ten
  columns) of the result.  By the row lemma the stored entry `(p, q)` is the network on row `p` of the loaded block,
  which is row `8192·t + p` of the input: so point `t` writes back rows `8192·t …` of `Cert.Spike.G` of the argument
  arrays.  Row `r` lies in the block of point `r / 8192`, so the 256 blocks cover the result, and the result array
  after the run is `G` of the arguments, whole.
-/
import proofs.«180145_j33784212750539_1_alg».proof.Proof.Gen.KernelIdeal.Value
import proofs.«180145_j33784212750539_1_alg».proof.Proof.KernelRow

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Spike
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 256 points: the input's and the result's block index is `(t, 0)`, every
    weight matrix's is `(0, 0)`. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One point, over plain variables: a block `xb` whose row `p` is row `r` of the array `x`, and the weights themselves,
    give at `(p, q)` what `G` has at `(r, q)`. -/
theorem point (x : S2097152x5.Idx → EReal) (W1 : S32x5.Idx → EReal) (W2 : S32x32.Idx → EReal) (W3 : S16x32.Idx → EReal)
    (W4 : S10x16.Idx → EReal) (xb : Vec Ideal S8192x5 .f32) (wb1 : Vec Ideal S32x5 .f32) (wb2 : Vec Ideal S32x32 .f32)
    (wb3 : Vec Ideal S16x32 .f32) (wb4 : Vec Ideal S10x16 .f32) (p : Fin 8192) (q : Fin 10) (r : Fin 2097152)
    (hx : ∀ k : Fin 5, xb (ix2 p k) = x (ix2 r k)) (h1 : wb1 = W1) (h2 : wb2 = W2) (h3 : wb3 = W3) (h4 : wb4 = W4) :
    k0_pay1 (F := Ideal) xb wb1 wb2 wb3 wb4 (ix2 p q) = G x W1 W2 W3 W4 (ix2 r q) := by
  subst h1 h2 h3 h4
  rw [Row.pay_apply, G_apply]
  exact congrArg (fun a => net wb1 wb2 wb3 wb4 a q) (funext hx)

/-- WHAT POINT `t` WRITES BACK is block `t` of `G` of the argument arrays as the launch finds them. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [Value.flushed5]
  unfold out0_5
  rw [View.canon_unit_zero origin]
  simp only [View.ld_unit_zero (S := S8192x5) origin, View.ld_unit_zero (S := S32x5) origin,
    View.ld_unit_zero (S := S32x32) origin, View.ld_unit_zero (S := S16x32) origin, View.ld_unit_zero (S := S10x16) origin]
  obtain ⟨e00, e01, e10, e11, e20, e21, e30, e31, e40, e41, e50, e51⟩ := maps t
  have ht : t.val < 256 := t.isLt
  funext j
  obtain ⟨p, q, rfl⟩ : ∃ (p : Fin 8192) (q : Fin 10), j = ix2 p q := ⟨j 0, j 1, eq_ix2 j⟩
  have hp : p.val < 8192 := p.isLt
  show k0_pay1 (F := Ideal) (iblk m c 0 t) (iblk m c 1 t) (iblk m c 2 t) (iblk m c 3 t) (iblk m c 4 t) (ix2 p q)
    = G (V m c main_arg0) (V m c main_arg1) (V m c main_arg2) (V m c main_arg3) (V m c main_arg4)
        (((cfg0.win 5).blk t).view.emb (ix2 p q))
  have hemb : ((cfg0.win 5).blk t).view.emb (ix2 p q) = ix2 (⟨t.val * 8192 + p.val, by omega⟩ : Fin 2097152) q := by
    funext a; apply Fin.ext
    match a with
    | ⟨0, _⟩ => show win0_5.index t (0 : Fin 2) * 8192 + 1 * p.val = t.val * 8192 + p.val; omega
    | ⟨1, _⟩ => show win0_5.index t (1 : Fin 2) * 10 + 1 * q.val = q.val; omega
  rw [hemb]
  refine point _ _ _ _ _ _ _ _ _ _ p q _ (fun k => ?_) ?_ ?_ ?_ ?_
  · show V m c main_arg0 (((cfg0.win 0).blk t).view.emb (ix2 p k)) = V m c main_arg0 (ix2 _ k)
    refine congrArg _ (funext fun a => Fin.ext ?_)
    match a with
    | ⟨0, _⟩ => show win0_0.index t (0 : Fin 2) * 8192 + 1 * p.val = t.val * 8192 + p.val; omega
    | ⟨1, _⟩ => show win0_0.index t (1 : Fin 2) * 5 + 1 * k.val = k.val; omega
  · funext y
    show V m c main_arg1 (((cfg0.win 1).blk t).view.emb y) = V m c main_arg1 y
    refine congrArg _ (funext fun a => Fin.ext ?_)
    match a with
    | ⟨0, _⟩ => show win0_1.index t (0 : Fin 2) * 32 + 1 * (y 0).val = (y 0).val; omega
    | ⟨1, _⟩ => show win0_1.index t (1 : Fin 2) * 5 + 1 * (y 1).val = (y 1).val; omega
  · funext y
    show V m c main_arg2 (((cfg0.win 2).blk t).view.emb y) = V m c main_arg2 y
    refine congrArg _ (funext fun a => Fin.ext ?_)
    match a with
    | ⟨0, _⟩ => show win0_2.index t (0 : Fin 2) * 32 + 1 * (y 0).val = (y 0).val; omega
    | ⟨1, _⟩ => show win0_2.index t (1 : Fin 2) * 32 + 1 * (y 1).val = (y 1).val; omega
  · funext y
    show V m c main_arg3 (((cfg0.win 3).blk t).view.emb y) = V m c main_arg3 y
    refine congrArg _ (funext fun a => Fin.ext ?_)
    match a with
    | ⟨0, _⟩ => show win0_3.index t (0 : Fin 2) * 16 + 1 * (y 0).val = (y 0).val; omega
    | ⟨1, _⟩ => show win0_3.index t (1 : Fin 2) * 32 + 1 * (y 1).val = (y 1).val; omega
  · funext y
    show V m c main_arg4 (((cfg0.win 4).blk t).view.emb y) = V m c main_arg4 y
    refine congrArg _ (funext fun a => Fin.ext ?_)
    match a with
    | ⟨0, _⟩ => show win0_4.index t (0 : Fin 2) * 10 + 1 * (y 0).val = (y 0).val; omega
    | ⟨1, _⟩ => show win0_4.index t (1 : Fin 2) * 16 + 1 * (y 1).val = (y 1).val; omega

/-- An index of the result is in point `t`'s block iff each coordinate is in the block's range on its axis. -/
theorem mem_blk (t : Fin cfg0.N) (i : S2097152x10.Idx) :
    i ∈ ((cfg0.win 5).blk t).view.set ↔ ∀ a : Fin 2, win0_5.index t a * S8192x10.size a ≤ (i a).val
      ∧ (i a).val < win0_5.index t a * S8192x10.size a + S8192x10.size a := by
  show i ∈ ((View.whole main_v0).slice (win0_5.rect t)).set ↔ _
  rw [View.set_slice_whole, Rect.mem_set_unit]
  exact Iff.rfl

/-- Every index of the result is in some point's block: row `r` in the block of point `r / 8192`. -/
theorem cover (i : S2097152x10.Idx) :
    ∃ t : Fin cfg0.N, (cfg0.win 5).flush t = true ∧ i ∈ ((cfg0.win 5).blk t).view.set := by
  have hi0 : (i 0).val < 2097152 := (i 0).isLt
  have hi1 : (i 1).val < 10 := (i 1).isLt
  have hN : cfg0.N = 256 := N_0
  let t : Fin cfg0.N := ⟨(i 0).val / 8192, by rw [hN]; omega⟩
  have htv : t.val = (i 0).val / 8192 := rfl
  obtain ⟨-, -, -, -, -, -, -, -, -, -, e50, e51⟩ := maps t
  refine ⟨t, flush0_5 t, ?_⟩
  rw [mem_blk]
  intro a
  match a with
  | ⟨0, _⟩ =>
    show win0_5.index t (0 : Fin 2) * 8192 ≤ (i 0).val ∧ (i 0).val < win0_5.index t (0 : Fin 2) * 8192 + 8192
    omega
  | ⟨1, _⟩ =>
    show win0_5.index t (1 : Fin 2) * 10 ≤ (i 1).val ∧ (i 1).val < win0_5.index t (1 : Fin 2) * 10 + 10
    omega

/-- THE RESULT ARRAY after the run is `G` of the argument arrays. -/
theorem final (c : Dev nD) :
    (dats m 0 c).arrAt 5 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- The run, read: the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefRow.lean ====
/-
  The reference's value at a row.

  The reference applies to the whole batch, layer after layer, a transpose of the weights, a dot product, the quotient
  by 2, the comparison with the threshold and the conversion of the answer to a float: four spiking layers in the
  spelling of a host program (`Cert.Spike.hLayer`).  So its result at row `r` and neuron `q` is the four-layer network
  (`Cert.Spike.net`) applied to row `r` of the input, and the whole result is `Cert.Spike.G` of the arguments.
-/
import proofs.«180145_j33784212750539_1_alg».proof.Proof.Gen.ReferenceIdeal.Read
import proofs.«180145_j33784212750539_1_alg».proof.Proof.Layer

noncomputable section

namespace Cert.ReferenceIdeal.Row

open Cert.ReferenceIdeal Cert.ReferenceIdeal.Gen Cert.ReferenceIdeal.Read
open Idealize.ShloMosaic Idealize.ShloMosaic.ValueIdx Cert.Spike

/-- The last stage of the reference is four layers in the host's spelling, each fed the spikes of the one before. -/
theorem ref_layers (x0 : (⟨S2097152x5, .f32⟩ : BufTy).Contents (Elt Ideal)) (x1 : (⟨S32x5, .f32⟩ : BufTy).Contents (Elt Ideal))
    (x2 : (⟨S32x32, .f32⟩ : BufTy).Contents (Elt Ideal)) (x3 : (⟨S16x32, .f32⟩ : BufTy).Contents (Elt Ideal))
    (x4 : (⟨S10x16, .f32⟩ : BufTy).Contents (Elt Ideal)) :
    val_main_v27 (F := Ideal) x0 x1 x2 x3 x4
      = hLayer dot_S2097152x16_S16x10_S2097152x10_1_0_0_1_n_n transposes_S10x16_S16x10_1_0 bcast_S_S2097152x10
          (hLayer dot_S2097152x32_S32x16_S2097152x16_1_0_0_1_n_n transposes_S16x32_S32x16_1_0 bcast_S_S2097152x16
            (hLayer dot_S2097152x32_S32x32_S2097152x32_1_0_0_1_n_n transposes_S32x32_S32x32_1_0 bcast_S_S2097152x32
              (hLayer dot_S2097152x5_S5x32_S2097152x32_1_0_0_1_n_n transposes_S32x5_S5x32_1_0 bcast_S_S2097152x32 x0 x1) x2) x3) x4 :=
  rfl

/-- Row `r`, neuron `q` of the reference's result: the network on row `r` of the input. -/
theorem ref_apply (x0 : (⟨S2097152x5, .f32⟩ : BufTy).Contents (Elt Ideal)) (x1 : (⟨S32x5, .f32⟩ : BufTy).Contents (Elt Ideal))
    (x2 : (⟨S32x32, .f32⟩ : BufTy).Contents (Elt Ideal)) (x3 : (⟨S16x32, .f32⟩ : BufTy).Contents (Elt Ideal))
    (x4 : (⟨S10x16, .f32⟩ : BufTy).Contents (Elt Ideal)) (r : Fin 2097152) (q : Fin 10) :
    val_main_v27 (F := Ideal) x0 x1 x2 x3 x4 (ix2 r q) = net x1 x2 x3 x4 (fun k => x0 (ix2 r k)) q := by
  rw [ref_layers]
  unfold net
  refine (hLayer_apply _ rfl _ _ _ x4 r q).trans (congrArg (fun a => layer x4 a q) (funext fun k3 => ?_))
  refine (hLayer_apply _ rfl _ _ _ x3 r k3).trans (congrArg (fun a => layer x3 a k3) (funext fun k2 => ?_))
  refine (hLayer_apply _ rfl _ _ _ x2 r k2).trans (congrArg (fun a => layer x2 a k2) (funext fun k1 => ?_))
  exact hLayer_apply _ rfl _ _ x0 x1 r k1

/-- The reference's result is the network applied to every row. -/
theorem ref_eq (x0 : (⟨S2097152x5, .f32⟩ : BufTy).Contents (Elt Ideal)) (x1 : (⟨S32x5, .f32⟩ : BufTy).Contents (Elt Ideal))
    (x2 : (⟨S32x32, .f32⟩ : BufTy).Contents (Elt Ideal)) (x3 : (⟨S16x32, .f32⟩ : BufTy).Contents (Elt Ideal))
    (x4 : (⟨S10x16, .f32⟩ : BufTy).Contents (Elt Ideal)) :
    val_main_v27 (F := Ideal) x0 x1 x2 x3 x4 = G x0 x1 x2 x3 x4 := by
  funext i
  obtain ⟨r, q, rfl⟩ : ∃ (r : Fin 2097152) (q : Fin 10), i = ix2 r q := ⟨i 0, i 1, eq_ix2 i⟩
  exact ref_apply x0 x1 x2 x3 x4 r q

end Cert.ReferenceIdeal.Row

end
-- ==== Proof.lean ====
/-
  The certificate of a four-layer spiking network on a batch of 2097152 inputs.

  Each layer is a linear map followed by a leaky integrate-and-fire neuron with time constant 2 and threshold 1, entered
  from rest: a neuron with drive `v` emits `1` if `1 ≤ v/2` and `0` otherwise (`Cert.Spike.fire`).  The layers have
  32, 32, 16 and 10 neurons, and every row of the batch passes through the network by itself (`Cert.Spike.net`,
  `Cert.Spike.G`).

  The kernel walks the batch in 256 blocks of 8192 rows; on each block it forms every drive as a matrix product with
  the transposed weights, halves it by the product with the float 1/2, compares, and converts the one-bit answer through
  a 32-bit word read signed.  The reference forms every drive as a dot product over the whole batch, halves it by the
  quotient by the float 2, compares, and converts the one-bit answer read unsigned.  On the extended reals the two
  halvings are one function (a quotient by the real 2 is the product with the real 1/2 at the infinities too), the two
  conversions agree on a one-bit word, and the two drives are the same finite sum of products: so each side's layer
  is `Cert.Spike.layer` (Proof/Layer.lean), the kernel's stored block is the network on the rows of its loaded block
  (Proof/KernelRow.lean), the 256 blocks cover the result (Proof/KernelWhole.lean), and the reference's result is the
  network on every row (Proof/RefRow.lean).  No step needs the inputs finite.

  The kernel's two frames are the generated ones; the reference's frame is its generated run with the result dropped;
  the idealization rewrote nothing, so `preserves` has nothing to prove.
-/
import proofs.«180145_j33784212750539_1_alg».proof.Defs
import proofs.«180145_j33784212750539_1_alg».proof.Proof.Gen.Kernel
import proofs.«180145_j33784212750539_1_alg».proof.Proof.Gen.Kernel.Skeleton
import proofs.«180145_j33784212750539_1_alg».proof.Proof.Gen.Kernel.Launch
import proofs.«180145_j33784212750539_1_alg».proof.Proof.Gen.Kernel.Points
import proofs.«180145_j33784212750539_1_alg».proof.Proof.Gen.Kernel.Frame
import proofs.«180145_j33784212750539_1_alg».proof.Proof.Gen.KernelIdeal
import proofs.«180145_j33784212750539_1_alg».proof.Proof.Gen.KernelIdeal.Skeleton
import proofs.«180145_j33784212750539_1_alg».proof.Proof.Gen.KernelIdeal.Launch
import proofs.«180145_j33784212750539_1_alg».proof.Proof.Gen.KernelIdeal.Points
import proofs.«180145_j33784212750539_1_alg».proof.Proof.Gen.KernelIdeal.Frame
import proofs.«180145_j33784212750539_1_alg».proof.Proof.Gen.ReferenceIdeal
import proofs.«180145_j33784212750539_1_alg».proof.Proof.Gen.Pre_finite_inputs
import proofs.«180145_j33784212750539_1_alg».proof.Proof.Gen.KernelIdeal.Value
import proofs.«180145_j33784212750539_1_alg».proof.Proof.Gen.ReferenceIdeal.Run
import proofs.«180145_j33784212750539_1_alg».proof.Proof.Gen.ReferenceIdeal.Read
import proofs.«180145_j33784212750539_1_alg».proof.Proof.KernelWhole
import proofs.«180145_j33784212750539_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel ends with its result array at the network applied to every row, and the
    reference ends with its result at the same function of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Row.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
